-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 256]⟩ ⟨2, ![1, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S1x256 : Shape := ⟨2, ![1, 256]⟩
abbrev S2x1x256 : Shape := ⟨3, ![2, 1, 256]⟩
abbrev S_ : Shape := ⟨0, ![]⟩
abbrev S256 : Shape := ⟨1, ![256]⟩
abbrev S1x1x256 : Shape := ⟨3, ![1, 1, 256]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S2x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_14 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_13 : BitVec 32 := 2#32
  let v19 : BitVec 32 := Scalar.muli v6 c2_i32_13
  let v20 : BitVec 32 := Scalar.addi c0_i32_14 v19
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_15 : BitVec 32 := 1#32
  let v21 : BitVec 32 := Scalar.muli v5 c1_i32_15
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S2x1x256_S1x1x256_0_0_0 : ∀ a, (![0, 0, 0] : Fin 3 → Nat) a + S1x1x256.size a ≤ S2x1x256.size a
  h_S1x1x256 : 0 < S1x1x256.numel
  shapeCasts_S1x1x256_S1x256 : S1x1x256.ShapeCasts S1x256
  shapeCasts_S1x256_S1x1x256 : S1x256.ShapeCasts S1x1x256
  inb_S2x1x256_S1x1x256_1_0_0 : ∀ a, (![1, 0, 0] : Fin 3 → Nat) a + S1x1x256.size a ≤ S2x1x256.size a
  squeezes_S1x1x256_S1x256 : S1x1x256.Squeezes S1x256
  inb_S1x256_S1x256_0_0 : ∀ a, (![0, 0] : Fin 2 → Nat) a + S1x256.size a ≤ S1x256.size a
  h_S1x256 : 0 < S1x256.numel
  hcc0_scratch1 : 2 + S_.numel ≤ 4
  hcc0_scratch2 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S512, .f32⟩
  | .hbm, ⟨3, _⟩ => ⟨S1x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Kernel.Proto.lean ====
/-
  The cross-device protocol of the pairwise column maximum, and the shared vocabulary of its proof.

  The four devices form a 2 x 2 mesh; device c is paired with the device in the other mesh row and the same
  mesh column, c + 2 modulo 4, an involution. Each device reduces its 512 x 256 block to the row of its column
  maxima, keeps that row in slot 0 of a two-slot scratch buffer, copies slot 0 into slot 1 of its partner's
  scratch buffer, and returns the elementwise maximum of its two slots.

  Three semaphores a device, each with one duty of one round:
  * the barrier semaphore, paid one unit by the partner's signal; with the unit the partner hands over slot 1
    of its own scratch buffer (the landing slot of this device's copy) and the fact that its receive cell has
    reached round 0;
  * the send semaphore, paid by this device's own copy once slot 0 is read; it returns slot 0, still holding the
    row of column maxima of this device's block;
  * the receive semaphore, paid by the partner's copy once it is written; it returns slot 1, now holding the
    row of column maxima of the partner's block.
  Waits respect the levels barrier < receive, everything else lowest: a device waits on its barrier cell owing
  only its partner's receive cell, and on its receive cell owing nothing.
-/
import proofs.«900931_g7700000000000932_dist_max_ax0_xy_m512_n256_v7x_xy2x2_bf16_1_alg».proof.Proof.Gen.Kernel
import proofs.«900931_g7700000000000932_dist_max_ax0_xy_m512_n256_v7x_xy2x2_bf16_1_alg».proof.Proof.Gen.Kernel.Skeleton
import proofs.«900931_g7700000000000932_dist_max_ax0_xy_m512_n256_v7x_xy2x2_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round, named by the unit) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The pairing of the devices -/

/-- The partner of device c: the other mesh row, the same mesh column. -/
def peer (c : Dev nD) : Dev nD := ⟨(c.val + 2) % 4, Nat.mod_lt _ (by decide)⟩

theorem peer_peer (c : Dev nD) : peer (peer c) = c := by revert c; decide

/-- Both device-id chains of the kernel (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs, the two slots of the scratch buffer, the cells -/

abbrev xM : Memref sig .tc .vmem S512x256 .f32 := Memref.whole cc0_stg0_0
abbrev oM : Memref sig .tc .vmem S1x256 .f32 := Memref.whole cc0_stg1_0
abbrev rM : Memref sig .tc .vmem S2x1x256 .f32 := Memref.whole cc0_scratch0

/-- Slot 0 and slot 1 of the scratch buffer as rectangles of its shape. -/
abbrev r0 : Rect S2x1x256 := Rect.unit (s := S2x1x256) ![0, 0, 0] S1x1x256.size inb_S2x1x256_S1x1x256_0_0_0
abbrev r1 : Rect S2x1x256 := Rect.unit (s := S2x1x256) ![1, 0, 0] S1x1x256.size inb_S2x1x256_S1x1x256_1_0_0

/-- The copy's source (slot 0) and destination (slot 1) as the kernel names them: the slot, its unit axis dropped. -/
abbrev srcM : Memref sig .tc .vmem S1x256 .f32 :=
  ((rM : Memref sig .tc .vmem S2x1x256 .f32).slice r0 (fun _ => rfl)).squeeze S1x256 squeezes_S1x1x256_S1x256
abbrev dstM : Memref sig .tc .vmem S1x256 .f32 :=
  ((rM : Memref sig .tc .vmem S2x1x256 .f32).slice r1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (dstM : Memref sig .tc .vmem S1x256 .f32).view.dmaCredit
theorem N_pos : 0 < N := View.dmaCredit_pos _ (by decide)

/-! ### The two slots partition the scratch buffer -/

abbrev S0 : Finset (rM : Memref sig .tc .vmem S2x1x256 .f32).view.ty.Idx := (srcM : Memref sig .tc .vmem S1x256 .f32).view.set
abbrev S1 : Finset (rM : Memref sig .tc .vmem S2x1x256 .f32).view.ty.Idx := (dstM : Memref sig .tc .vmem S1x256 .f32).view.set

theorem S0_eq : S0 = r0.set := by
  show (((View.whole cc0_scratch0).slice r0).reshape S1x256 _).set = _
  rw [View.set_reshape, View.set_slice_whole]
theorem S1_eq : S1 = r1.set := by
  show (((View.whole cc0_scratch0).slice r1).reshape S1x256 _).set = _
  rw [View.set_reshape, View.set_slice_whole]

theorem S_disjoint : Disjoint S0 S1 := by
  rw [S0_eq, S1_eq]; exact Rect.unit_disjoint 0 (Or.inl (by decide))

theorem S_union : S0 ∪ S1 = Finset.univ := by
  rw [S0_eq, S1_eq]
  ext i
  simp only [Finset.mem_union, Finset.mem_univ, iff_true, Rect.mem_set_unit]
  have h0 : (i 0).val < 2 := (i 0).isLt
  have h1 : (i 1).val < 1 := (i 1).isLt
  have h2 : (i 2).val < 256 := (i 2).isLt
  rcases Nat.lt_or_ge (i 0).val 1 with h | h
  · left; intro a
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 256; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 1; omega⟩
    | ⟨2, _⟩ => exact ⟨Nat.zero_le _, by show (i 2).val < 0 + 256; omega⟩

/-! ## Contents -/

/-- The staged block of x on device c. -/
def xstg (c : Dev nD) : (cc0_stg0_0 : Ref sig .tc).ty.Contents (Elt F) :=
  (win0_0.blk (0 : Fin 1)).view.read (Elt F) (m ((c : Thread nD τ).loc main_arg0))

/-- The row of column maxima of device c's block, as the kernel stores it in slot 0. -/
def rowv (c : Dev nD) : FVec F S1x1x256 .f32 := k0_pay2 (xstg m c)

/-- What slot 0 / slot 1 of a scratch buffer's contents read as. -/
abbrev rd0 (f : (cc0_scratch0 : Ref sig .tc).ty.Contents (Elt F)) : FVec F S1x1x256 .f32 :=
  ((rM : Memref sig .tc .vmem S2x1x256 .f32).access r0).read (Elt F) f
abbrev rd1 (f : (cc0_scratch0 : Ref sig .tc).ty.Contents (Elt F)) : FVec F S1x1x256 .f32 :=
  ((rM : Memref sig .tc .vmem S2x1x256 .f32).access r1).read (Elt F) f

/-- A view with its unit axis dropped reads what the view reads, at the re-indexed position. -/
theorem read_reshape {κ : Kind} {sp : Space} {s s' : Shape} {e : EltTy} (v : View sig κ sp s e) (h : s'.numel = s.numel)
    (f : v.ty.Contents (Elt F)) (x : s'.Idx) :
    (v.reshape s' h).read (Elt F) f x = v.read (Elt F) f (Shape.reshapeEquiv h x) := rfl

/-- After the copy, slot 1 of the destination reads what slot 0 of the source read. -/
theorem landed_read (fd fs : (cc0_scratch0 : Ref sig .tc).ty.Contents (Elt F)) :
    rd1 ((dstM : Memref sig .tc .vmem S1x256 .f32).view.write (Elt F) fd ((srcM : Memref sig .tc .vmem S1x256 .f32).view.read (Elt F) fs) Finset.univ)
      = rd0 fs := by
  have h := View.read_write_univ (v := (dstM : Memref sig .tc .vmem S1x256 .f32).view) (Val := Elt F) fd
    ((srcM : Memref sig .tc .vmem S1x256 .f32).view.read (Elt F) fs)
  funext y
  have hy := congrFun h ((Shape.reshapeEquiv squeezes_S1x1x256_S1x256.numel_eq).symm y)
  have e1 := read_reshape (F := F) ((View.whole cc0_scratch0).slice r1) squeezes_S1x1x256_S1x256.numel_eq
    ((dstM : Memref sig .tc .vmem S1x256 .f32).view.write (Elt F) fd ((srcM : Memref sig .tc .vmem S1x256 .f32).view.read (Elt F) fs) Finset.univ)
    ((Shape.reshapeEquiv squeezes_S1x1x256_S1x256.numel_eq).symm y)
  have e0 := read_reshape (F := F) ((View.whole cc0_scratch0).slice r0) squeezes_S1x1x256_S1x256.numel_eq fs
    ((Shape.reshapeEquiv squeezes_S1x1x256_S1x256.numel_eq).symm y)
  rw [Equiv.apply_symm_apply] at e1 e0
  exact e1.symm.trans (hy.trans e0)

def slot0Pts (c : Dev nD) (f : Buf (Elt F) ((srcM : Memref sig .tc .vmem S1x256 .f32).view.loc (c : Thread nD τ))) : sProp 𝕄 :=
  (srcM : Memref sig .tc .vmem S1x256 .f32).view.loc (c : Thread nD τ) ↦[(srcM : Memref sig .tc .vmem S1x256 .f32).view.set]{fullShare} f
def slot1Pts (c : Dev nD) (f : Buf (Elt F) ((dstM : Memref sig .tc .vmem S1x256 .f32).view.loc (c : Thread nD τ))) : sProp 𝕄 :=
  (dstM : Memref sig .tc .vmem S1x256 .f32).view.loc (c : Thread nD τ) ↦[(dstM : Memref sig .tc .vmem S1x256 .f32).view.set]{fullShare} f

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- What the partner's signal hands c: the partner's landing slot, and that the partner's receive cell is at round 0. -/
def barPay (c : Dev nD) : sProp 𝕄 := iprop((∃ f, slot1Pts (peer c) f) ∗ reached ER (recvCell (peer c)) 0)
/-- What the send cell returns: slot 0, reading as the row of column maxima of c's own block. -/
def sendPay (c : Dev nD) : sProp 𝕄 := iprop(∃ f, ⌜rd0 f = rowv m c⌝ ∗ slot0Pts c f)
/-- What the receive cell returns: slot 1, reading as the row of column maxima of the partner's block. -/
def recvPay (c : Dev nD) : sProp 𝕄 := iprop(∃ f, ⌜rd1 f = rowv m (peer c)⌝ ∗ slot1Pts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell's of one unit, a send or receive cell's of the row's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device c owes its partner's receive cell the row's credit and its partner's barrier cell one unit; the signal comes
    first and peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send cell: below everything the device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: the elementwise maximum of its own row of column maxima and its partner's. -/
def outAt (c : Dev nD) : (cc0_stg1_0 : Ref sig .tc).ty.Contents (Elt F) := k0_pay1 (rowv m c) (rowv m (peer c))

/-- The cells' invariants device c's body opens, under the names the launch allocated them at: its own three, and its
    partner's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells; the
    reached-marks of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

abbrev scrWhole (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m c ∗ ∃ f, scrWhole c f)
/-- After the point: the scratch buffer whole again, the two own cells at zero, closed. -/
def Φ₁ (c : Dev nD) : sProp 𝕄 := iprop((∃ f, scrWhole c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rX : Rect S512x256 := Rect.unit (s := S512x256) ![0, 0] S512x256.size inb_S512x256_S512x256_0_0
abbrev rO : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access rO : View sig .tc _ _ _).write (Elt F) f w Finset.univ = w :=
  Memref.write_access_unit_zero_univ (Elt F) cc0_stg1_0 hz2 _ f w

omit [FloatOps F] in
theorem acc0_set : ((rM : Memref sig .tc .vmem S2x1x256 .f32).access r0).set = S0 := by rw [S0_eq]; exact View.set_slice_whole _ _
omit [FloatOps F] in
theorem acc1_set : ((rM : Memref sig .tc .vmem S2x1x256 .f32).access r1).set = S1 := by rw [S1_eq]; exact View.set_slice_whole _ _

omit [FloatOps F] in
/-- The scratch buffer held whole is its two slots held apart. -/
theorem scr_split (c : Dev nD) (f : Buf (Elt F) ((c : Thread nD τ).loc cc0_scratch0)) :
    (scrWhole c f : sProp 𝕄) ⊢ iprop(slot0Pts c f ∗ slot1Pts c f) := by
  unfold slot0Pts slot1Pts
  have h : (pointsTo ((c : Thread nD τ).loc cc0_scratch0) (S0 ∪ S1) fullShare f : sProp 𝕄)
      ⊣⊢ iprop(pointsTo ((c : Thread nD τ).loc cc0_scratch0) S0 fullShare f ∗ pointsTo ((c : Thread nD τ).loc cc0_scratch0) S1 fullShare f) :=
    BI.Region.is_union S_disjoint
  rw [S_union] at h
  exact h.1

omit [FloatOps F] in
theorem scr_join (c : Dev nD) (fa fb : Buf (Elt F) ((c : Thread nD τ).loc cc0_scratch0)) :
    iprop(slot0Pts c fa ∗ slot1Pts c fb) ⊢ (∃ f, scrWhole c f : sProp 𝕄) := by
  unfold slot0Pts slot1Pts
  have h : iprop(pointsTo ((c : Thread nD τ).loc cc0_scratch0) S0 fullShare fa ∗ pointsTo ((c : Thread nD τ).loc cc0_scratch0) S1 fullShare fb)
      ⊢ (pointsTo ((c : Thread nD τ).loc cc0_scratch0) (S0 ∪ S1) fullShare (S1.piecewise fb fa) : sProp 𝕄) :=
    BI.Region.is_join S_disjoint
  rw [S_union] at h
  iintro H
  iexists (S1.piecewise fb fa)
  iapply h; iexact H

/-- The copy at the protocol's cells, addressed to n = the partner (substituted, not rewritten): it pays the send cell's duty with
    slot 0 as it stands and the partner's receive cell's duty with the partner's slot 1 rewritten. -/
theorem wp_send_pair (c n : Dev nD) (hn : n = peer c) {hsc : (dstM : Memref sig (Dev.tc n : Thread nD τ).2.kind .vmem S1x256 .f32).view.ref.isScScratch = false}
    {hsrc : (srcM : Memref sig .tc .vmem S1x256 .f32).view.WordExact} {hdst : (dstM : Memref sig .tc .vmem S1x256 .f32).view.WordExact}
    {hsem : DmaTarget.Typed .vmem (.dma recvS.sem) (.remote (Dev.tc n : Thread nD τ) (dstM : Memref sig .tc .vmem S1x256 .f32) (.dma sendS.sem) hsc)}
    {α : Type} {Q : α → sProp 𝕄} {k : PUnit → Prog (TpuEff nD τ sig (Elt F) Λ₀ .tc) α}
    (fs : Buf (Elt F) ((srcM : Memref sig .tc .vmem S1x256 .f32).view.loc (c : Thread nD τ))) (hfs : rd0 fs = rowv m c)
    (fd : Buf (Elt F) ((dstM : Memref sig .tc .vmem S1x256 .f32).view.loc (peer c : Thread nD τ))) (W : Waits sig Unit) :
    iprop(cellInv ER (sched m) (K (c, 1)) (sendCell c) ∗ cellInv ER (sched m) (K (peer c, 2)) (recvCell (peer c))
        ∗ ((srcM : Memref sig .tc .vmem S1x256 .f32).view.loc (c : Thread nD τ) ↦[(srcM : Memref sig .tc .vmem S1x256 .f32).view.set]{fullShare} fs)
        ∗ ((dstM : Memref sig .tc .vmem S1x256 .f32).view.loc (peer c : Thread nD τ) ↦[(dstM : Memref sig .tc .vmem S1x256 .f32).view.set]{fullShare} fd)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  exact Rounds.wp_send_pointsTo 𝒱₀ ER (sched m) (c : Thread nD τ) none (κ₁ := K (c, 1)) (κ₂ := K (peer c, 2))
    (r₁ := 0) (r₂ := 0) (d₁ := ()) (d₂ := ()) (fs := fs) (fd := fd)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((dstM : Memref sig .tc .vmem S1x256 .f32).view.write (Elt F) fd ((srcM : Memref sig .tc .vmem S1x256 .f32).view.read (Elt F) fs) Finset.univ)
      isplitr; · ipureintro; rw [landed_read, peer_peer]; exact hfs
      iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrWhole c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
/-- The body on device c, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- the scratch buffer by slots
  ihave Hs := (scr_split (F := F) c f0) $$ Hscr
  icases Hs with ⟨Hs0, Hs1⟩
  -- the signal to the partner's barrier cell: it hands over this device's slot 1
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  -- the load of the block of x
  iapply (wp_load 𝒱₀ (c : Thread nD τ) none Set.univ (m := xM) (Finset.subset_univ _)) $$ Hx; iintro Hx
  rw [read_x]
  -- slot 0 is read, then takes the row of column maxima
  unfold slot0Pts
  iapply (wp_load_rect 𝒱₀ (c : Thread nD τ) none Set.univ (m := rM) (r := r0) (Finset.subset_of_eq acc0_set)) $$ Hs0; iintro Hs0
  iapply (wp_store 𝒱₀ (c : Thread nD τ) none Set.univ (m := rM) (r := r0) (Mk := Finset.univ) (Finset.subset_of_eq acc0_set)) $$ Hs0; iintro Hs0
  have hfs : rd0 (((rM : Memref sig .tc .vmem S2x1x256 .f32).access r0).write (Elt F) f0 (k0_pay2 (xstg m c)) Finset.univ) = rowv m c :=
    View.read_write_univ _ _
  -- the wait on its own barrier cell, owing the partner's receive credit: the partner's slot 1 comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay slot1Pts
  icases Hp with ⟨⟨%fn, HscrP⟩, #HrVP'⟩
  -- the copy into the partner's slot 1
  iapply (wp_send_pair m K c _ (dev2_eq c) _ hfs fn (insert (SemLoc.reg barS, ()) W)) $$ [Hs0 HscrP HO HtS HtVP]
  · isplitr; · iexact HIsnd
    isplitr; · iexact HIrcvP
    isplitl [Hs0]; · iexact Hs0
    isplitl [HscrP]; · iexact HscrP
    isplitl [HO]; · iexact HO
    isplitl [HtS]; · iexact HtS
    isplitr; · iexact HrS
    isplitl [HtVP]; · iexact HtVP
    iexact HrVP
  iintro ⟨HcS, HO⟩
  -- the wait on its send cell: slot 0 back, reading as its own row
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m c)) $$ Hpay
  unfold sendPay slot0Pts
  icases Hp with ⟨%fa, %hfa, Hs0⟩
  -- the wait on its receive cell: slot 1 back, reading as the partner's row
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m c)) $$ Hpay
  unfold recvPay slot1Pts
  icases Hp with ⟨%fb, %hfb, Hs1⟩
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the two slots are read, their maximum stored
  iapply (wp_load_rect 𝒱₀ (c : Thread nD τ) none Set.univ (m := rM) (r := r0) (Finset.subset_of_eq acc0_set)) $$ Hs0; iintro Hs0
  iapply (wp_load_rect 𝒱₀ (c : Thread nD τ) none Set.univ (m := rM) (r := r1) (Finset.subset_of_eq acc1_set)) $$ Hs1; iintro Hs1
  rw [show ((rM : Memref sig .tc .vmem S2x1x256 .f32).access r0).read (Elt F) fa = rowv m c from hfa,
    show ((rM : Memref sig .tc .vmem S2x1x256 .f32).access r1).read (Elt F) fb = rowv m (peer c) from hfb]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hs0 Hs1 HzS HzV]
  · isplitl [Hs0 Hs1]
    · iapply (scr_join (F := F) c fa fb)
      unfold slot0Pts slot1Pts
      isplitl [Hs0]; · iexact Hs0
      iexact Hs1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of @main — the
    paired kernels handshaking on the barrier semaphore, then copying their rows to each other — terminates, and every
    final state has each device's windowed arrays at the computed contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

/-- The x array after the run holds what it held. -/
theorem finalA_x (c : Dev nD) : finalA m c (0 : Fin 2) = m (win0_0.arr.view.loc (c : Thread nD τ)) :=
  (dats (F := F) m 0 c).arrAt_in (0 : Fin 2) rfl _

end Cert.Kernel.Proto

end
-- ==== Proof.KernelIdeal.Proto.lean ====
/-
  The cross-device protocol of the pairwise column maximum, and the shared vocabulary of its proof.

  The four devices form a 2 x 2 mesh; device c is paired with the device in the other mesh row and the same
  mesh column, c + 2 modulo 4, an involution. Each device reduces its 512 x 256 block to the row of its column
  maxima, keeps that row in slot 0 of a two-slot scratch buffer, copies slot 0 into slot 1 of its partner's
  scratch buffer, and returns the elementwise maximum of its two slots.

  Three semaphores a device, each with one duty of one round:
  * the barrier semaphore, paid one unit by the partner's signal; with the unit the partner hands over slot 1
    of its own scratch buffer (the landing slot of this device's copy) and the fact that its receive cell has
    reached round 0;
  * the send semaphore, paid by this device's own copy once slot 0 is read; it returns slot 0, still holding the
    row of column maxima of this device's block;
  * the receive semaphore, paid by the partner's copy once it is written; it returns slot 1, now holding the
    row of column maxima of the partner's block.
  Waits respect the levels barrier < receive, everything else lowest: a device waits on its barrier cell owing
  only its partner's receive cell, and on its receive cell owing nothing.
-/
import proofs.«900931_g7700000000000932_dist_max_ax0_xy_m512_n256_v7x_xy2x2_bf16_1_alg».proof.Proof.Gen.KernelIdeal
import proofs.«900931_g7700000000000932_dist_max_ax0_xy_m512_n256_v7x_xy2x2_bf16_1_alg».proof.Proof.Gen.KernelIdeal.Skeleton
import proofs.«900931_g7700000000000932_dist_max_ax0_xy_m512_n256_v7x_xy2x2_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (one duty a round, named by the unit) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The pairing of the devices -/

/-- The partner of device c: the other mesh row, the same mesh column. -/
def peer (c : Dev nD) : Dev nD := ⟨(c.val + 2) % 4, Nat.mod_lt _ (by decide)⟩

theorem peer_peer (c : Dev nD) : peer (peer c) = c := by revert c; decide

/-- Both device-id chains of the kernel (the signal's and the copy's) name the partner. -/
theorem dev1_eq (c : Dev nD) : (⟨k0_dev1 c, k0_dev1_lt c⟩ : Dev nD) = peer c :=
  Fin.ext ((k0_dev1_eq c).trans (by revert c; decide))
theorem dev2_eq (c : Dev nD) : (⟨k0_dev2 c, k0_dev2_lt c⟩ : Dev nD) = peer c :=
  Fin.ext ((k0_dev2_eq c).trans (by revert c; decide))

def pairing : Dev nD ≃ Dev nD := ⟨peer, peer, peer_peer, peer_peer⟩

/-! ## The memrefs, the two slots of the scratch buffer, the cells -/

abbrev xM : Memref sig .tc .vmem S512x256 .f32 := Memref.whole cc0_stg0_0
abbrev oM : Memref sig .tc .vmem S1x256 .f32 := Memref.whole cc0_stg1_0
abbrev rM : Memref sig .tc .vmem S2x1x256 .f32 := Memref.whole cc0_scratch0

/-- Slot 0 and slot 1 of the scratch buffer as rectangles of its shape. -/
abbrev r0 : Rect S2x1x256 := Rect.unit (s := S2x1x256) ![0, 0, 0] S1x1x256.size inb_S2x1x256_S1x1x256_0_0_0
abbrev r1 : Rect S2x1x256 := Rect.unit (s := S2x1x256) ![1, 0, 0] S1x1x256.size inb_S2x1x256_S1x1x256_1_0_0

/-- The copy's source (slot 0) and destination (slot 1) as the kernel names them: the slot, its unit axis dropped. -/
abbrev srcM : Memref sig .tc .vmem S1x256 .f32 :=
  ((rM : Memref sig .tc .vmem S2x1x256 .f32).slice r0 (fun _ => rfl)).squeeze S1x256 squeezes_S1x1x256_S1x256
abbrev dstM : Memref sig .tc .vmem S1x256 .f32 :=
  ((rM : Memref sig .tc .vmem S2x1x256 .f32).slice r1 (fun _ => rfl)).squeeze S1x256 squeezes_S1x1x256_S1x256

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores as the launch indexes them: send, receive; -/
abbrev osem : Fin 2 → SemLoc sig := fun | 0 => .dma sendS.sem | 1 => .dma recvS.sem
/-- all three of the protocol's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (dstM : Memref sig .tc .vmem S1x256 .f32).view.dmaCredit
theorem N_pos : 0 < N := View.dmaCredit_pos _ (by decide)

/-! ### The two slots partition the scratch buffer -/

abbrev S0 : Finset (rM : Memref sig .tc .vmem S2x1x256 .f32).view.ty.Idx := (srcM : Memref sig .tc .vmem S1x256 .f32).view.set
abbrev S1 : Finset (rM : Memref sig .tc .vmem S2x1x256 .f32).view.ty.Idx := (dstM : Memref sig .tc .vmem S1x256 .f32).view.set

theorem S0_eq : S0 = r0.set := by
  show (((View.whole cc0_scratch0).slice r0).reshape S1x256 _).set = _
  rw [View.set_reshape, View.set_slice_whole]
theorem S1_eq : S1 = r1.set := by
  show (((View.whole cc0_scratch0).slice r1).reshape S1x256 _).set = _
  rw [View.set_reshape, View.set_slice_whole]

theorem S_disjoint : Disjoint S0 S1 := by
  rw [S0_eq, S1_eq]; exact Rect.unit_disjoint 0 (Or.inl (by decide))

theorem S_union : S0 ∪ S1 = Finset.univ := by
  rw [S0_eq, S1_eq]
  ext i
  simp only [Finset.mem_union, Finset.mem_univ, iff_true, Rect.mem_set_unit]
  have h0 : (i 0).val < 2 := (i 0).isLt
  have h1 : (i 1).val < 1 := (i 1).isLt
  have h2 : (i 2).val < 256 := (i 2).isLt
  rcases Nat.lt_or_ge (i 0).val 1 with h | h
  · left; intro a
    match a with
    | ⟨0, _⟩ => exact ⟨Nat.zero_le _, by show (i 0).val < 0 + 1; omega⟩
    | ⟨1, _⟩ => exact ⟨Nat.zero_le _, by show (i 1).val < 0 + 1; omega⟩
    | ⟨2, _⟩ => exact ⟨Nat.zero_le _, by show (i 2).val < 0 + 256; omega⟩
  · right; intro a
    match a with
    | ⟨0, _⟩ => exact ⟨by show 1 ≤ (i 0).val; omega, by show (i 0).val < 1 + 1; omega⟩
    | ⟨1, _⟩ => exact ⟨Nat.zero_le _, by show (i 1).val < 0 + 1; omega⟩
    | ⟨2, _⟩ => exact ⟨Nat.zero_le _, by show (i 2).val < 0 + 256; omega⟩

/-! ## Contents -/

/-- The staged block of x on device c. -/
def xstg (c : Dev nD) : (cc0_stg0_0 : Ref sig .tc).ty.Contents (Elt F) :=
  (win0_0.blk (0 : Fin 1)).view.read (Elt F) (m ((c : Thread nD τ).loc main_arg0))

/-- The row of column maxima of device c's block, as the kernel stores it in slot 0. -/
def rowv (c : Dev nD) : FVec F S1x1x256 .f32 := k0_pay2 (xstg m c)

/-- What slot 0 / slot 1 of a scratch buffer's contents read as. -/
abbrev rd0 (f : (cc0_scratch0 : Ref sig .tc).ty.Contents (Elt F)) : FVec F S1x1x256 .f32 :=
  ((rM : Memref sig .tc .vmem S2x1x256 .f32).access r0).read (Elt F) f
abbrev rd1 (f : (cc0_scratch0 : Ref sig .tc).ty.Contents (Elt F)) : FVec F S1x1x256 .f32 :=
  ((rM : Memref sig .tc .vmem S2x1x256 .f32).access r1).read (Elt F) f

/-- A view with its unit axis dropped reads what the view reads, at the re-indexed position. -/
theorem read_reshape {κ : Kind} {sp : Space} {s s' : Shape} {e : EltTy} (v : View sig κ sp s e) (h : s'.numel = s.numel)
    (f : v.ty.Contents (Elt F)) (x : s'.Idx) :
    (v.reshape s' h).read (Elt F) f x = v.read (Elt F) f (Shape.reshapeEquiv h x) := rfl

/-- After the copy, slot 1 of the destination reads what slot 0 of the source read. -/
theorem landed_read (fd fs : (cc0_scratch0 : Ref sig .tc).ty.Contents (Elt F)) :
    rd1 ((dstM : Memref sig .tc .vmem S1x256 .f32).view.write (Elt F) fd ((srcM : Memref sig .tc .vmem S1x256 .f32).view.read (Elt F) fs) Finset.univ)
      = rd0 fs := by
  have h := View.read_write_univ (v := (dstM : Memref sig .tc .vmem S1x256 .f32).view) (Val := Elt F) fd
    ((srcM : Memref sig .tc .vmem S1x256 .f32).view.read (Elt F) fs)
  funext y
  have hy := congrFun h ((Shape.reshapeEquiv squeezes_S1x1x256_S1x256.numel_eq).symm y)
  have e1 := read_reshape (F := F) ((View.whole cc0_scratch0).slice r1) squeezes_S1x1x256_S1x256.numel_eq
    ((dstM : Memref sig .tc .vmem S1x256 .f32).view.write (Elt F) fd ((srcM : Memref sig .tc .vmem S1x256 .f32).view.read (Elt F) fs) Finset.univ)
    ((Shape.reshapeEquiv squeezes_S1x1x256_S1x256.numel_eq).symm y)
  have e0 := read_reshape (F := F) ((View.whole cc0_scratch0).slice r0) squeezes_S1x1x256_S1x256.numel_eq fs
    ((Shape.reshapeEquiv squeezes_S1x1x256_S1x256.numel_eq).symm y)
  rw [Equiv.apply_symm_apply] at e1 e0
  exact e1.symm.trans (hy.trans e0)

def slot0Pts (c : Dev nD) (f : Buf (Elt F) ((srcM : Memref sig .tc .vmem S1x256 .f32).view.loc (c : Thread nD τ))) : sProp 𝕄 :=
  (srcM : Memref sig .tc .vmem S1x256 .f32).view.loc (c : Thread nD τ) ↦[(srcM : Memref sig .tc .vmem S1x256 .f32).view.set]{fullShare} f
def slot1Pts (c : Dev nD) (f : Buf (Elt F) ((dstM : Memref sig .tc .vmem S1x256 .f32).view.loc (c : Thread nD τ))) : sProp 𝕄 :=
  (dstM : Memref sig .tc .vmem S1x256 .f32).view.loc (c : Thread nD τ) ↦[(dstM : Memref sig .tc .vmem S1x256 .f32).view.set]{fullShare} f

omit [FloatOps F] in
instance slot0Pts_storable (c : Dev nD) (f) : BI.Storable (upEmb : UEmb _ 𝕄) (slot0Pts (F := F) c f) := by unfold slot0Pts; infer_instance
omit [FloatOps F] in
instance slot1Pts_storable (c : Dev nD) (f) : BI.Storable (upEmb : UEmb _ 𝕄) (slot1Pts (F := F) c f) := by unfold slot1Pts; infer_instance

/-! ## The schedule -/

/-- What the partner's signal hands c: the partner's landing slot, and that the partner's receive cell is at round 0. -/
def barPay (c : Dev nD) : sProp 𝕄 := iprop((∃ f, slot1Pts (peer c) f) ∗ reached ER (recvCell (peer c)) 0)
/-- What the send cell returns: slot 0, reading as the row of column maxima of c's own block. -/
def sendPay (c : Dev nD) : sProp 𝕄 := iprop(∃ f, ⌜rd0 f = rowv m c⌝ ∗ slot0Pts c f)
/-- What the receive cell returns: slot 1, reading as the row of column maxima of the partner's block. -/
def recvPay (c : Dev nD) : sProp 𝕄 := iprop(∃ f, ⌜rd1 f = rowv m (peer c)⌝ ∗ slot1Pts c f)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, one duty a cell: a barrier cell's of one unit, a send or receive cell's of the row's credit. -/
def sched : Rounds.Schedule (GSem nD τ sig) Unit 𝕄 where
  duties g r := if r = 0 ∧ (IsBar g ∨ IsXfer g) then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device c owes its partner's receive cell the row's credit and its partner's barrier cell one unit; the signal comes
    first and peels the last summand. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait on a staging semaphore or on the send cell: below everything the device may still owe. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device c: the elementwise maximum of its own row of column maxima and its partner's. -/
def outAt (c : Dev nD) : (cc0_stg1_0 : Ref sig .tc).ty.Contents (Elt F) := k0_pay1 (rowv m c) (rowv m (peer c))

/-- The cells' invariants device c's body opens, under the names the launch allocated them at: its own three, and its
    partner's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The protocol's ghost state device c starts from: the invariants; its positions at round 0 of its three cells; the
    reached-marks of the cells it pays and of its own send and receive cells; the three duty tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- What device c's body starts from: that at some names, its two credit tokens (its barrier's unit, its receive cell's
    credit) and the level facts. -/
def start (c : Dev nD) : sProp 𝕄 :=
  iprop((∃ K, ghost m K c) ∗ cred (tallyAt (barCell c) () 1) ∗ cred (tallyAt (recvCell c) () N) ∗ levAts L lv)

abbrev scrWhole (c : Dev nD) (f : Buf (Elt F) ((c : Thread nD τ).loc cc0_scratch0)) : sProp 𝕄 :=
  ((c : Thread nD τ).loc cc0_scratch0) ↦{fullShare} f

def Φ₀ (c : Dev nD) : sProp 𝕄 := iprop(start m c ∗ ∃ f, scrWhole c f)
/-- After the point: the scratch buffer whole again, the two own cells at zero, closed. -/
def Φ₁ (c : Dev nD) : sProp 𝕄 := iprop((∃ f, scrWhole c f) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

section Body

variable (K : Dev nD × Fin 3 → ℕ)

abbrev rX : Rect S512x256 := Rect.unit (s := S512x256) ![0, 0] S512x256.size inb_S512x256_S512x256_0_0
abbrev rO : Rect S1x256 := Rect.unit (s := S1x256) ![0, 0] S1x256.size inb_S1x256_S1x256_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S1x256 .f32).access rO : View sig .tc _ _ _).write (Elt F) f w Finset.univ = w :=
  Memref.write_access_unit_zero_univ (Elt F) cc0_stg1_0 hz2 _ f w

omit [FloatOps F] in
theorem acc0_set : ((rM : Memref sig .tc .vmem S2x1x256 .f32).access r0).set = S0 := by rw [S0_eq]; exact View.set_slice_whole _ _
omit [FloatOps F] in
theorem acc1_set : ((rM : Memref sig .tc .vmem S2x1x256 .f32).access r1).set = S1 := by rw [S1_eq]; exact View.set_slice_whole _ _

omit [FloatOps F] in
/-- The scratch buffer held whole is its two slots held apart. -/
theorem scr_split (c : Dev nD) (f : Buf (Elt F) ((c : Thread nD τ).loc cc0_scratch0)) :
    (scrWhole c f : sProp 𝕄) ⊢ iprop(slot0Pts c f ∗ slot1Pts c f) := by
  unfold slot0Pts slot1Pts
  have h : (pointsTo ((c : Thread nD τ).loc cc0_scratch0) (S0 ∪ S1) fullShare f : sProp 𝕄)
      ⊣⊢ iprop(pointsTo ((c : Thread nD τ).loc cc0_scratch0) S0 fullShare f ∗ pointsTo ((c : Thread nD τ).loc cc0_scratch0) S1 fullShare f) :=
    BI.Region.is_union S_disjoint
  rw [S_union] at h
  exact h.1

omit [FloatOps F] in
theorem scr_join (c : Dev nD) (fa fb : Buf (Elt F) ((c : Thread nD τ).loc cc0_scratch0)) :
    iprop(slot0Pts c fa ∗ slot1Pts c fb) ⊢ (∃ f, scrWhole c f : sProp 𝕄) := by
  unfold slot0Pts slot1Pts
  have h : iprop(pointsTo ((c : Thread nD τ).loc cc0_scratch0) S0 fullShare fa ∗ pointsTo ((c : Thread nD τ).loc cc0_scratch0) S1 fullShare fb)
      ⊢ (pointsTo ((c : Thread nD τ).loc cc0_scratch0) (S0 ∪ S1) fullShare (S1.piecewise fb fa) : sProp 𝕄) :=
    BI.Region.is_join S_disjoint
  rw [S_union] at h
  iintro H
  iexists (S1.piecewise fb fa)
  iapply h; iexact H

/-- The copy at the protocol's cells, addressed to n = the partner (substituted, not rewritten): it pays the send cell's duty with
    slot 0 as it stands and the partner's receive cell's duty with the partner's slot 1 rewritten. -/
theorem wp_send_pair (c n : Dev nD) (hn : n = peer c) {hsc : (dstM : Memref sig (Dev.tc n : Thread nD τ).2.kind .vmem S1x256 .f32).view.ref.isScScratch = false}
    {hsrc : (srcM : Memref sig .tc .vmem S1x256 .f32).view.WordExact} {hdst : (dstM : Memref sig .tc .vmem S1x256 .f32).view.WordExact}
    {hsem : DmaTarget.Typed .vmem (.dma recvS.sem) (.remote (Dev.tc n : Thread nD τ) (dstM : Memref sig .tc .vmem S1x256 .f32) (.dma sendS.sem) hsc)}
    {α : Type} {Q : α → sProp 𝕄} {k : PUnit → Prog (TpuEff nD τ sig (Elt F) Λ₀ .tc) α}
    (fs : Buf (Elt F) ((srcM : Memref sig .tc .vmem S1x256 .f32).view.loc (c : Thread nD τ))) (hfs : rd0 fs = rowv m c)
    (fd : Buf (Elt F) ((dstM : Memref sig .tc .vmem S1x256 .f32).view.loc (peer c : Thread nD τ))) (W : Waits sig Unit) :
    iprop(cellInv ER (sched m) (K (c, 1)) (sendCell c) ∗ cellInv ER (sched m) (K (peer c, 2)) (recvCell (peer c))
        ∗ ((srcM : Memref sig .tc .vmem S1x256 .f32).view.loc (c : Thread nD τ) ↦[(srcM : Memref sig .tc .vmem S1x256 .f32).view.set]{fullShare} fs)
        ∗ ((dstM : Memref sig .tc .vmem S1x256 .f32).view.loc (peer c : Thread nD τ) ↦[(dstM : Memref sig .tc .vmem S1x256 .f32).view.set]{fullShare} fd)
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma srcM (.remote (Dev.tc n : Thread nD τ) dstM (.dma sendS.sem) hsc) (.dma recvS.sem) hsrc hdst hsem) k) Q) := by
  subst hn
  exact Rounds.wp_send_pointsTo 𝒱₀ ER (sched m) (c : Thread nD τ) none (κ₁ := K (c, 1)) (κ₂ := K (peer c, 2))
    (r₁ := 0) (r₂ := 0) (d₁ := ()) (d₂ := ()) (fs := fs) (fd := fd)
    (by rw [duties_send]; exact Finset.mem_singleton_self _) (by rw [duties_recv]; exact Finset.mem_singleton_self _)
    () () N rfl (amount_send m c ()) (amount_recv m (peer c) ()) 0 (by rw [zero_add]) (W := W)
    (by
      rw [payload_send]; unfold sendPay slot0Pts
      iintro H; iexists fs
      isplitr; · ipureintro; exact hfs
      iexact H)
    (by
      rw [payload_recv]; unfold recvPay slot1Pts
      iintro H
      iexists ((dstM : Memref sig .tc .vmem S1x256 .f32).view.write (Elt F) fd ((srcM : Memref sig .tc .vmem S1x256 .f32).view.read (Elt F) fs) Finset.univ)
      isplitr; · ipureintro; rw [landed_read, peer_peer]; exact hfs
      iexact H)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, scrWhole c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ c ∗ (dats m 0 c).owesAt () t₀.succ ∗ stg c cc0_stg0_0 (xstg m c) ∗ stg c cc0_stg1_0 (outAt m c))

set_option maxHeartbeats 1600000 in
/-- The body on device c, one rule per effect in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hscr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- the scratch buffer by slots
  ihave Hs := (scr_split (F := F) c f0) $$ Hscr
  icases Hs with ⟨Hs0, Hs1⟩
  -- the signal to the partner's barrier cell: it hands over this device's slot 1
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP Hs1]
  · isplitr; · iexact HIbarP
    isplitl [HO]; · iexact HO
    isplitl [HtBP]; · iexact HtBP
    isplitl [Hs1]
    · rw [payload_bar]; unfold barPay; rw [peer_peer]
      isplitl [Hs1]; · iexists f0; iexact Hs1
      iexact HrV
    · iexact HrBP
  iintro HO
  -- the load of the block of x
  iapply (wp_load 𝒱₀ (c : Thread nD τ) none Set.univ (m := xM) (Finset.subset_univ _)) $$ Hx; iintro Hx
  rw [read_x]
  -- slot 0 is read, then takes the row of column maxima
  unfold slot0Pts
  iapply (wp_load_rect 𝒱₀ (c : Thread nD τ) none Set.univ (m := rM) (r := r0) (Finset.subset_of_eq acc0_set)) $$ Hs0; iintro Hs0
  iapply (wp_store 𝒱₀ (c : Thread nD τ) none Set.univ (m := rM) (r := r0) (Mk := Finset.univ) (Finset.subset_of_eq acc0_set)) $$ Hs0; iintro Hs0
  have hfs : rd0 (((rM : Memref sig .tc .vmem S2x1x256 .f32).access r0).write (Elt F) f0 (k0_pay2 (xstg m c)) Finset.univ) = rowv m c :=
    View.read_write_univ _ _
  -- the wait on its own barrier cell, owing the partner's receive credit: the partner's slot 1 comes with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay slot1Pts
  icases Hp with ⟨⟨%fn, HscrP⟩, #HrVP'⟩
  -- the copy into the partner's slot 1
  iapply (wp_send_pair m K c _ (dev2_eq c) _ hfs fn (insert (SemLoc.reg barS, ()) W)) $$ [Hs0 HscrP HO HtS HtVP]
  · isplitr; · iexact HIsnd
    isplitr; · iexact HIrcvP
    isplitl [Hs0]; · iexact Hs0
    isplitl [HscrP]; · iexact HscrP
    isplitl [HO]; · iexact HO
    isplitl [HtS]; · iexact HtS
    isplitr; · iexact HrS
    isplitl [HtVP]; · iexact HtVP
    iexact HrVP
  iintro ⟨HcS, HO⟩
  -- the wait on its send cell: slot 0 back, reading as its own row
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hp := (Entails.of_eq (rest_send m c)) $$ Hpay
  unfold sendPay slot0Pts
  icases Hp with ⟨%fa, %hfa, Hs0⟩
  -- the wait on its receive cell: slot 1 back, reading as the partner's row
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.reg barS, ()) W)) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hp := (Entails.of_eq (rest_recv m c)) $$ Hpay
  unfold recvPay slot1Pts
  icases Hp with ⟨%fb, %hfb, Hs1⟩
  -- the two own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  -- the two slots are read, their maximum stored
  iapply (wp_load_rect 𝒱₀ (c : Thread nD τ) none Set.univ (m := rM) (r := r0) (Finset.subset_of_eq acc0_set)) $$ Hs0; iintro Hs0
  iapply (wp_load_rect 𝒱₀ (c : Thread nD τ) none Set.univ (m := rM) (r := r1) (Finset.subset_of_eq acc1_set)) $$ Hs1; iintro Hs1
  rw [show ((rM : Memref sig .tc .vmem S2x1x256 .f32).access r0).read (Elt F) fa = rowv m c from hfa,
    show ((rM : Memref sig .tc .vmem S2x1x256 .f32).access r1).read (Elt F) fb = rowv m (peer c) from hfb]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m 0 c).owed t₀.succ = 0 from rfl]
  isplitl [Hs0 Hs1 HzS HzV]
  · isplitl [Hs0 Hs1]
    · iapply (scr_join (F := F) c fa fb)
      unfold slot0Pts slot1Pts
      isplitl [Hs0]; · iexact Hs0
      iexact Hs1
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 4000 in
/-- The pipeline's body obligation on device c. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

/-! ## The launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩

/-- Each cell's one duty token as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-- The duty tokens of device c's own cells. -/
def toks (c : Dev nD) : sProp 𝕄 :=
  iprop(dutyTok ER (barCell c) 0 () ∗ dutyTok ER (sendCell c) 0 () ∗ dutyTok ER (recvCell c) 0 ())

/-- What the launch element deals device c. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 3 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin3]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device c: its positions, and the tokens of the duties it pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's and a receive cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device d owes device c's barrier cell: a unit if d is c's partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
theorem owed_recv (d c : Dev nD) : O₀ d (recvCell c) () = if d = peer c then N else 0 := by
  unfold O₀
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Hr, HzS, HzV⟩
  isplitr; · iempintro
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of @main — the
    paired kernels handshaking on the barrier semaphore, then copying their rows to each other — terminates, and every
    final state has each device's windowed arrays at the computed contents. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-- The x array after the run holds what it held. -/
theorem finalA_x (c : Dev nD) : finalA m c (0 : Fin 2) = m (win0_0.arr.view.loc (c : Thread nD τ)) :=
  (dats (F := F) m 0 c).arrAt_in (0 : Fin 2) rfl _

end Cert.KernelIdeal.Proto

end
-- ==== Proof.LibMaxCover.lean ====
/-
  A maximum over a finite index type, taken as a fold of max from a base value, splits over any two families of
  indices that together reach every index: it is the larger of the two families' maxima. Neither injectivity nor
  disjointness of the families is needed, since max is idempotent.
-/
import Mathlib.Data.Finset.Fold
import Mathlib.Data.Fintype.Basic
import Mathlib.Order.Lattice

namespace Cert.LibMaxCover

/-- The fold of max from b over all of K is the larger of the folds of max from b over the two families lo and hi,
    when every index of K is lo of something or hi of something. -/
theorem fold_max_univ_of_cover {α : Type*} [LinearOrder α] {I J K : Type*} [Fintype I] [Fintype J] [Fintype K]
    (b : α) (f : K → α) (lo : I → K) (hi : J → K) (hcov : ∀ k, (∃ i, lo i = k) ∨ ∃ j, hi j = k) :
    max ((Finset.univ : Finset I).fold max b (f ∘ lo)) ((Finset.univ : Finset J).fold max b (f ∘ hi))
      = (Finset.univ : Finset K).fold max b f := by
  refine eq_of_forall_ge_iff fun z => ?_
  simp only [max_le_iff, Finset.fold_max_le, Finset.mem_univ, true_implies, Function.comp_apply]
  constructor
  · rintro ⟨⟨hb, h1⟩, ⟨_, h2⟩⟩
    refine ⟨hb, fun k => ?_⟩
    rcases hcov k with ⟨i, rfl⟩ | ⟨j, rfl⟩
    · exact h1 i
    · exact h2 j
  · rintro ⟨hb, h⟩
    exact ⟨⟨hb, fun i => h _⟩, ⟨hb, fun j => h _⟩⟩

end Cert.LibMaxCover
-- ==== Proof.KernelIdeal.Value.lean ====
/-
  The value of the pairwise column maximum at the extended reals, and that it is the reference's.

  After the run, device c's result array holds, at column q of its 256 columns, the larger of two folds of max from the word
  of minus infinity: over the 512 rows of its own block at column q, and over the 512 rows of its partner's block at
  column q. The device's block is rows (c / 2) * 512 .. + 512 and columns (c % 2) * 256 .. + 256 of the whole array x; its
  partner's has the other 512 rows and the same columns. The reference's result at column (c % 2) * 256 + q is the fold of
  max from the same word over all 1024 rows of x at that column. A fold of max over an index type is the larger of the
  folds over two families of indices that together reach every index (max is idempotent, so nothing else is asked of the
  families): here the device's rows and its partner's rows, which are all 1024.
-/
import proofs.«900931_g7700000000000932_dist_max_ax0_xy_m512_n256_v7x_xy2x2_bf16_1_alg».proof.Proof.KernelIdeal.Proto
import proofs.«900931_g7700000000000932_dist_max_ax0_xy_m512_n256_v7x_xy2x2_bf16_1_alg».proof.Proof.Gen.ReferenceIdeal.Read
import proofs.«900931_g7700000000000932_dist_max_ax0_xy_m512_n256_v7x_xy2x2_bf16_1_alg».proof.Proof.LibMaxCover
import Idealize.ShloMosaic.Lib.Pipeline.Value
import Idealize.ShloMosaic.Lib.ValueIdx
import Idealize.ShloMosaic.PureOps.Ideal.Laws
import Idealize.ShloMosaic.Lib.Layout

noncomputable section

namespace Cert.KernelIdeal.PairMax

open Cert.KernelIdeal Cert.KernelIdeal.Gen Cert.KernelIdeal.Proto
open Idealize.ShloMosaic
open Idealize.ShloMosaic.TcCoe
open Idealize.SL Idealize.SL.Sem
open Idealize.ShloMosaic.Pipeline (Dat Cfg Window)

variable (m : (ℓ : Loc nD τ sig) → Buf (Elt Ideal) ℓ)

theorem finalA_out (c : Dev nD) : finalA m c (1 : Fin 2) = outAt m c := by
  have hb : ((cfg0.win (1 : Fin 2)).blk t₀).view.read (Elt Ideal) (finalA m c (1 : Fin 2)) = (dats (F := Ideal) m 0 c).flushed (1 : Fin 2) t₀ := by
    unfold finalA
    rw [show cfg0.N = (t₀ : Fin cfg0.N).val + 1 from rfl, (dats (F := Ideal) m 0 c).arrAt_succ (1 : Fin 2) t₀,
      show (cfg0.win (1 : Fin 2)).flush t₀ = true from by decide, if_pos rfl]
    exact View.read_write_univ _ _
  have hz : (fun a => (win0_1.index t₀) a * main_v1.ty.shape.size a) = fun _ => 0 := funext fun a => by fin_cases a <;> decide
  rw [Memref.read_access_unit_zero (Elt Ideal) main_v1 hz (fun a => by fin_cases a <;> decide)] at hb
  exact hb

theorem xstg_eq (c : Dev nD) : xstg m c = m ((c : Thread nD τ).loc main_arg0) := by
  unfold xstg
  have hz : (fun a => (win0_0.index t₀) a * main_arg0.ty.shape.size a) = fun _ => 0 := funext fun a => by fin_cases a <;> decide
  exact Memref.read_access_unit_zero (Elt Ideal) main_arg0 hz (fun a => by fin_cases a <;> decide) _

/-- A device's row of column maxima at column j 1: the fold of max, from the word of minus infinity, over the 512 rows of
    its block at that column. -/
theorem row_apply (d : Dev nD) (j : S1x256.Idx) (k : S256.Idx) (hk : (k 0).val = (j 1).val) :
    (shapeCast S1x256 (rowv m d) shapeCasts_S1x1x256_S1x256) j
      = ((Finset.univ : Finset (Fin (S512x256.size 0))).fold max (FloatOps.ofBits (F := Ideal) .f32 0xFF800000#32)
          ((m ((d : Thread nD τ).loc main_arg0) : FVec Ideal S512x256 .f32) ∘ reduces_S512x256_S256.lift k) : Ideal .f32) := by
  unfold rowv k0_pay2
  dsimp only
  rw [shapeCast_shapeCast, shapeCast_self, xstg_eq]
  have hj0 : (j 0).val = 0 := by have h1 : (j 0).val < 1 := (j 0).isLt; omega
  rw [shapeCast_apply _ _ j k (by rw [Shape.rowMajor_val_one, Shape.rowMajor_val_two, hk, hj0]; simp)]
  exact Ideal.multiReduction_maximumf_single _ _ _ _ _ k

/-- The kernel's result on device c at column j 1: the larger of its own and its partner's column maxima. -/
theorem outAt_apply (c : Dev nD) (j : S1x256.Idx) (k : S256.Idx) (hk : (k 0).val = (j 1).val) :
    (outAt m c j : Ideal .f32)
      = max ((Finset.univ : Finset (Fin (S512x256.size 0))).fold max (FloatOps.ofBits (F := Ideal) .f32 0xFF800000#32)
              ((m ((c : Thread nD τ).loc main_arg0) : FVec Ideal S512x256 .f32) ∘ reduces_S512x256_S256.lift k) : Ideal .f32)
            ((Finset.univ : Finset (Fin (S512x256.size 0))).fold max (FloatOps.ofBits (F := Ideal) .f32 0xFF800000#32)
              ((m ((peer c : Thread nD τ).loc main_arg0) : FVec Ideal S512x256 .f32) ∘ reduces_S512x256_S256.lift k) : Ideal .f32) := by
  unfold outAt k0_pay1
  dsimp only
  rw [ValueIdx.maximumf_apply, row_apply m c j k hk, row_apply m (peer c) j k hk]

/-! ## The reference's side -/

theorem redR : Cert.ReferenceIdeal.S1024x512.Reduces [0] Cert.ReferenceIdeal.S512 := by decide

/-- The reference's result at column i 1: the fold of max, from the word of minus infinity, over all 1024 rows of x at that
    column. -/
theorem ref_apply (X : (⟨Cert.ReferenceIdeal.S1024x512, .f32⟩ : BufTy).Contents (Elt Ideal)) (i : Cert.ReferenceIdeal.S1x512.Idx) :
    (Cert.ReferenceIdeal.Read.val_main_v1 (F := Ideal) X i : Ideal .f32)
      = ((Finset.univ : Finset (Fin (Cert.ReferenceIdeal.S1024x512.size 0))).fold max (FloatOps.ofBits (F := Ideal) .f32 0xFF800000#32)
          ((X : FVec Ideal Cert.ReferenceIdeal.S1024x512 .f32) ∘ redR.lift (Cert.ReferenceIdeal.Read.idx_main_v1 i)) : Ideal .f32) := by
  rw [Cert.ReferenceIdeal.Read.val_main_v1_apply]
  unfold Cert.ReferenceIdeal.Read.val_main_v0
  rw [Host.reduce_eq_fold_single (FloatOps.maximumf (F := Ideal) (φ := .f32)) X _ _ redR]
  rfl

/-! ## The two sides are one function -/

/-- Row r of device d's block, at the block's column k 0, is row (d / 2) * 512 + r of the whole array at column
    (d % 2) * 256 + k 0. -/
theorem block_lift (d : Dev nD) (k : S256.Idx) (jj : Cert.ReferenceIdeal.S512.Idx) (hjj : (jj 0).val = (d.val % 2) * 256 + (k 0).val)
    (r : Fin (S512x256.size 0)) (R : Fin (Cert.ReferenceIdeal.S1024x512.size 0)) (hR : R.val = (d.val / 2) * 512 + r.val)
    (h : Layout.TilesN ⟨2, ![512, 256]⟩ ⟨2, ![1024, 512]⟩ (fun b => Layout.cutSize [2, 2] ((![[0], [1]] : Fin 2 → List Nat) b))) :
    h.idx (Layout.meshBlock [2, 2] ![[0], [1]] d) (reduces_S512x256_S256.lift k r) = redR.lift jj R := by
  funext a
  apply Fin.ext
  rw [Layout.TilesN.idx_val, Shape.Reduces.lift_val]
  have hd : d.val < 4 := d.isLt
  match a with
  | ⟨0, _⟩ =>
    show (Layout.meshLin [2, 2] d.val [0]) * 512 + reduces_S512x256_S256.liftVal k r.val 0 = redR.liftVal jj R.val 0
    simp only [Shape.Reduces.liftVal, Layout.meshLin, Layout.meshCoord, Layout.cutSize, List.drop, List.foldr, List.getD_cons_zero, List.getD_cons_succ, dite_true, Fin.val_zero]
    omega
  | ⟨1, _⟩ =>
    show (Layout.meshLin [2, 2] d.val [1]) * 256 + reduces_S512x256_S256.liftVal k r.val 1 = redR.liftVal jj R.val 1
    simp only [Shape.Reduces.liftVal, Layout.meshLin, Layout.meshCoord, Layout.cutSize, List.drop, List.foldr, List.getD_cons_zero, List.getD_cons_succ, Fin.val_zero, Fin.val_one]
    simp
    omega

/-- The index of column q in a row of 256 columns. -/
def colIdx (q : Fin 256) : S256.Idx := fun a => match a with
  | ⟨0, _⟩ => q

/-- The rows of the whole array that device d's block holds. -/
def rowsOf (d : Dev nD) (r : Fin (S512x256.size 0)) : Fin (Cert.ReferenceIdeal.S1024x512.size 0) :=
  ⟨(d.val / 2) * 512 + r.val, by have hd : d.val < 4 := d.isLt; have hr : r.val < 512 := r.isLt; show _ < 1024; omega⟩

/-- A device's rows and its partner's rows together are all 1024 rows: the two sit in different mesh rows. -/
theorem rows_cover (c : Dev nD) (R : Fin (Cert.ReferenceIdeal.S1024x512.size 0)) :
    (∃ r, rowsOf c r = R) ∨ ∃ r, rowsOf (peer c) r = R := by
  have hR : R.val < 1024 := R.isLt
  have hp : (peer c).val / 2 = 1 - c.val / 2 := by revert c; decide
  have hc4 : c.val < 4 := c.isLt
  have hc : c.val / 2 ≤ 1 := by omega
  by_cases h : R.val / 512 = c.val / 2
  · left
    refine ⟨⟨R.val - (c.val / 2) * 512, by show _ < 512; omega⟩, Fin.ext ?_⟩
    show (c.val / 2) * 512 + (R.val - (c.val / 2) * 512) = R.val
    omega
  · right
    refine ⟨⟨R.val - ((peer c).val / 2) * 512, by show _ < 512; omega⟩, Fin.ext ?_⟩
    show ((peer c).val / 2) * 512 + (R.val - ((peer c).val / 2) * 512) = R.val
    omega

/-- On every device the kernel's result is the device's block (its mesh column's 256 columns) of the reference's result: the
    maximum over all 1024 rows is the larger of the maxima over the device's 512 rows and over its partner's. -/
theorem value_eq (X : (⟨Cert.ReferenceIdeal.S1024x512, .f32⟩ : BufTy).Contents (Elt Ideal))
    (hagree : ∀ c : Dev nD, m ((c : Thread nD τ).loc main_arg0)
      = Layout.blockN ⟨2, ![512, 256]⟩ ⟨2, ![1024, 512]⟩ (Layout.meshBlock [2, 2] ![[0], [1]] c) X)
    (c : Dev nD) :
    outAt m c = Layout.blockN ⟨2, ![1, 256]⟩ ⟨2, ![1, 512]⟩ (Layout.meshBlock [2, 2] ![[], [1]] c)
      (Cert.ReferenceIdeal.Read.val_main_v1 (F := Ideal) X) := by
  have hpc : (peer c).val % 2 = c.val % 2 := by revert c; decide
  funext j
  have hT : Layout.TilesN ⟨2, ![1, 256]⟩ ⟨2, ![1, 512]⟩ (fun b => Layout.cutSize [2, 2] ((![[], [1]] : Fin 2 → List Nat) b)) := by decide
  have hB : Layout.TilesN ⟨2, ![512, 256]⟩ ⟨2, ![1024, 512]⟩ (fun b => Layout.cutSize [2, 2] ((![[0], [1]] : Fin 2 → List Nat) b)) := by decide
  -- the column of the whole result this device's column j 1 is
  let i : Cert.ReferenceIdeal.S1x512.Idx := hT.idx (Layout.meshBlock [2, 2] ![[], [1]] c) j
  have hi1 : (i 1).val = (c.val % 2) * 256 + (j 1).val := by
    show (Layout.meshLin [2, 2] c.val [1]) * 256 + (j 1).val = _
    simp only [Layout.meshLin, Layout.meshCoord, Layout.cutSize, List.drop, List.foldr, List.getD_cons_zero, List.getD_cons_succ]
    omega
  show (outAt m c j : Ideal .f32) = Cert.ReferenceIdeal.Read.val_main_v1 (F := Ideal) X i
  refine (outAt_apply m c j (colIdx ⟨(j 1).val, (j 1).isLt⟩) rfl).trans ?_
  refine Eq.trans ?_ (ref_apply X i).symm
  rw [hagree c, hagree (peer c)]
  rw [show (Layout.blockN ⟨2, ![512, 256]⟩ ⟨2, ![1024, 512]⟩ (Layout.meshBlock [2, 2] ![[0], [1]] c) X ∘ reduces_S512x256_S256.lift (colIdx ⟨(j 1).val, (j 1).isLt⟩))
        = (((X : FVec Ideal Cert.ReferenceIdeal.S1024x512 .f32) ∘ redR.lift (Cert.ReferenceIdeal.Read.idx_main_v1 i)) ∘ rowsOf c) from
      funext fun r => congrArg X (block_lift c (colIdx ⟨(j 1).val, (j 1).isLt⟩) (Cert.ReferenceIdeal.Read.idx_main_v1 i) hi1 r (rowsOf c r) rfl hB),
    show (Layout.blockN ⟨2, ![512, 256]⟩ ⟨2, ![1024, 512]⟩ (Layout.meshBlock [2, 2] ![[0], [1]] (peer c)) X ∘ reduces_S512x256_S256.lift (colIdx ⟨(j 1).val, (j 1).isLt⟩))
        = (((X : FVec Ideal Cert.ReferenceIdeal.S1024x512 .f32) ∘ redR.lift (Cert.ReferenceIdeal.Read.idx_main_v1 i)) ∘ rowsOf (peer c)) from
      funext fun r => congrArg X (block_lift (peer c) (colIdx ⟨(j 1).val, (j 1).isLt⟩) (Cert.ReferenceIdeal.Read.idx_main_v1 i) (by rw [hpc]; exact hi1) r (rowsOf (peer c) r) rfl hB)]
  exact Cert.LibMaxCover.fold_max_univ_of_cover (α := Ideal .f32) (FloatOps.ofBits (F := Ideal) .f32 0xFF800000#32)
    ((X : FVec Ideal Cert.ReferenceIdeal.S1024x512 .f32) ∘ redR.lift (Cert.ReferenceIdeal.Read.idx_main_v1 i)) (rowsOf c) (rowsOf (peer c)) (rows_cover c)

/-- info: 'Cert.KernelIdeal.PairMax.value_eq' depends on axioms: [propext, Classical.choice, Quot.sound] -/
#guard_msgs in #print axioms value_eq

end Cert.KernelIdeal.PairMax

end
-- ==== Proof.lean ====
/-
  The pairwise column maximum on a 2 x 2 mesh against jnp.max over all rows: the five claims.

  Four devices; device c holds the 512 x 256 block of x at mesh row c / 2 and mesh column c % 2, and is paired with the
  device in the other mesh row of its column. Each reduces its block to the row of its column maxima, the two partners
  exchange their rows by one remote copy each after a handshake on the barrier semaphore, and each returns the elementwise
  maximum of the two rows: for its 256 columns, the maximum over all 1024 rows of x, which is the device's block of the
  reference's result. Over the extended reals max is associative, commutative and idempotent, so the two sides are equal
  whatever the inputs are; the precondition is never opened.

  The frames of the two kernel programs are the run of the protocol (the three cells a device, their levels, the launch)
  with the values dropped; the word-level program's is the same text read at the word-level instance. The reference's
  frame is its generated run. The ideal pass rewrote nothing, so the preservation claim is trivial.
-/
import proofs.«900931_g7700000000000932_dist_max_ax0_xy_m512_n256_v7x_xy2x2_bf16_1_alg».proof.Defs
import proofs.«900931_g7700000000000932_dist_max_ax0_xy_m512_n256_v7x_xy2x2_bf16_1_alg».proof.Proof.Gen.Kernel
import proofs.«900931_g7700000000000932_dist_max_ax0_xy_m512_n256_v7x_xy2x2_bf16_1_alg».proof.Proof.Gen.KernelIdeal
import proofs.«900931_g7700000000000932_dist_max_ax0_xy_m512_n256_v7x_xy2x2_bf16_1_alg».proof.Proof.Gen.ReferenceIdeal
import proofs.«900931_g7700000000000932_dist_max_ax0_xy_m512_n256_v7x_xy2x2_bf16_1_alg».proof.Proof.Gen.Pre_finite_inputs_Kernel
import proofs.«900931_g7700000000000932_dist_max_ax0_xy_m512_n256_v7x_xy2x2_bf16_1_alg».proof.Proof.Gen.Pre_finite_inputs_ReferenceIdeal
import proofs.«900931_g7700000000000932_dist_max_ax0_xy_m512_n256_v7x_xy2x2_bf16_1_alg».proof.Proof.Gen.ReferenceIdeal.Read
import proofs.«900931_g7700000000000932_dist_max_ax0_xy_m512_n256_v7x_xy2x2_bf16_1_alg».proof.Proof.Kernel.Proto
import proofs.«900931_g7700000000000932_dist_max_ax0_xy_m512_n256_v7x_xy2x2_bf16_1_alg».proof.Proof.KernelIdeal.Proto
import proofs.«900931_g7700000000000932_dist_max_ax0_xy_m512_n256_v7x_xy2x2_bf16_1_alg».proof.Proof.KernelIdeal.Value
import Idealize.ShloMosaic.Adequacy
import Idealize.ShloMosaic.Init

noncomputable section

namespace Cert.Proof

open Idealize.ShloMosaic Idealize.SL.Sem

/-- The word-level kernel's run, its values dropped: x ends as launched on every device. -/
theorem frame_kernel : Cert.frame_Kernel := fun m g _ =>
  (θ_run (Cert.Kernel.defs (F := Bits)) _ _).mono
    (fun _ h c => (h c 0).trans (Cert.Kernel.Proto.finalA_x m c)) (Cert.Kernel.Proto.run_main (F := Bits) m g)

/-- The idealized kernel's run, its values dropped. -/
theorem frame_kernelIdeal : Cert.frame_KernelIdeal := fun m g _ =>
  (θ_run (Cert.KernelIdeal.defs (F := Ideal)) _ _).mono
    (fun _ h c => (h c 0).trans (Cert.KernelIdeal.Proto.finalA_x m c)) (Cert.KernelIdeal.Proto.run_main (F := Ideal) m g)

/-- The reference's generated run, its result dropped. -/
theorem frame_reference : Cert.frame_ReferenceIdeal := fun m g _ =>
  (θ_run (Cert.ReferenceIdeal.defs (F := Ideal)) _ _).mono (fun _ h c => (h c).2) (Cert.ReferenceIdeal.Value.run (F := Ideal) m g)

/-- Both programs run; the reference ends with the column maxima over all rows, and each device ends with its block of
    them: the larger of its own and its partner's column maxima. -/
theorem algebraic : Cert.algebraic_KernelIdeal_ReferenceIdeal := by
  intro m g m' g' _ hagree
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c 1).trans ((Cert.KernelIdeal.PairMax.finalA_out m c).trans (Cert.KernelIdeal.PairMax.value_eq m _ hagree c)),
        (h c 0).trans (Cert.KernelIdeal.Proto.finalA_x m c)⟩)
      (Cert.KernelIdeal.Proto.run_main (F := Ideal) m g)
  · exact (θ_run (Cert.ReferenceIdeal.defs (F := Ideal)) _ _).mono
      (fun _ h => ⟨(h 0).1.trans (Cert.ReferenceIdeal.Read.val_main_v1_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_kernel, frame_kernelIdeal, frame_reference, trivial, algebraic⟩

end Cert.Proof

end
